-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_v33

def fn {F : FTy → Type} [FloatOps F] (main_arg0 : FVec F S8192x64 .f32) (main_arg1 : FVec F S8192x64 .f32) (main_arg2 : FVec F S64x512 .f32) (main_arg3 : FVec F S512 .f32) (main_arg4 : FVec F S512x512 .f32) (main_arg5 : FVec F S512 .f32) (main_arg6 : FVec F S512x128 .f32) (main_arg7 : FVec F S128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S8192x128 : Shape := ⟨2, ![8192, 128]⟩
abbrev S512x64 : Shape := ⟨2, ![512, 64]⟩
abbrev S512x1 : Shape := ⟨2, ![512, 1]⟩
abbrev S8192x8192 : Shape := ⟨2, ![8192, 8192]⟩
abbrev S1024x128 : Shape := ⟨2, ![1024, 128]⟩
abbrev S1024x1024 : Shape := ⟨2, ![1024, 1024]⟩

abbrev nBuf : Space → Nat
  | .hbm => 17
  | .vmem => 26
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S1x512, .f32⟩
  | .hbm, ⟨9, _⟩ => ⟨S1x512, .f32⟩
  | .hbm, ⟨10, _⟩ => ⟨S1x128, .f32⟩
  | .hbm, ⟨11, _⟩ => ⟨S8192x128, .bf16⟩
  | .hbm, ⟨12, _⟩ => ⟨S1x512, .f32⟩
  | .hbm, ⟨13, _⟩ => ⟨S1x512, .f32⟩
  | .hbm, ⟨14, _⟩ => ⟨S1x128, .f32⟩
  | .hbm, ⟨15, _⟩ => ⟨S8192x128, .bf16⟩
  | .hbm, ⟨16, _⟩ => ⟨S8192x8192, .f32⟩
  | .local _ .vmem, ⟨0, _⟩ => ⟨S512x64, .f32⟩
  | .local _ .vmem, ⟨1, _⟩ => ⟨S512x64, .f32⟩
  | .local _ .vmem, ⟨2, _⟩ => ⟨S64x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S512x64, .f32⟩
  | .local _ .vmem, ⟨11, _⟩ => ⟨S512x64, .f32⟩
  | .local _ .vmem, ⟨12, _⟩ => ⟨S64x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S512x128, .bf16⟩
  | .local _ .vmem, ⟨19, _⟩ => ⟨S512x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x1024, .f32⟩
  | .local _ .vmem, ⟨25, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S512_S1x512 : S512.ShapeCasts S1x512
  shapeCasts_S128_S1x128 : S128.ShapeCasts S1x128
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  packedbf16_S512x128_S512x128_0_0 : (Rect.unit (s := S512x128) ![0, 0] S512x128.size inb_S512x128_S512x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S512x64_S64x512_S512x512_1_0_0_1_n_n_wf : DotDims.WF S512x64 S64x512 S512x512 [1] [0] [0] [1] [] []
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S8192x128.size a
  hwx0_7 : ∀ i : grid0.Coords, EltTy.bits .bf16 = 32 ∨ (Rect.block (s := S8192x128) S512x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S8192x128.size a
  hwx1_7 : ∀ i : grid1.Coords, EltTy.bits .bf16 = 32 ∨ (Rect.block (s := S8192x128) S512x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v3) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S8192x512 : Shape := ⟨2, ![8192, 512]⟩
abbrev S1x512 : Shape := ⟨2, ![1, 512]⟩
abbrev S_ : Shape := ⟨0, ![]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x128, .f32⟩
  | .hbm, ⟨35, _⟩ => ⟨S8192x128, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x128, .f32⟩
  | .hbm, ⟨63, _⟩ => ⟨S8192x128, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call2_cst : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call3_cst : Ref sig .tc := ⟨.hbm, 47, rfl⟩
abbrev main_call3_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  dot_S8192x64_S64x512_S8192x512_1_0_0_1_n_n_wf : DotDims.WF S8192x64 S64x512 S8192x512 [1] [0] [0] [1] [] []
  dot_S8192x512_S512x512_S8192x512_1_0_0_1_n_n_wf : DotDims.WF S8192x512 S512x512 S8192x512 [1] [0] [0] [1] [] []
  dot_S8192x512_S512x128_S8192x128_1_0_0_1_n_n_wf : DotDims.WF S8192x512 S512x128 S8192x128 [1] [0] [0] [1] [] []
  dot_S8192x128_S8192x128_S8192x8192_1_1_0_0_n_n_wf : DotDims.WF S8192x128 S8192x128 S8192x8192 [1] [1] [0] [0] [] []

variable [Facts₀]

def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.GemmBody.lean ====
/-
  One grid point of the product call, read at an index: the body multiplies a block of 1024 encoded rows of the
  first input with a block of 1024 encoded rows of the second, contracting the 128 latent coordinates, and scales by
  the float one. At (p, q) the stored value is the inner product of row p of the first block and row q of the second:
  the scale is the extended real 1, and a product with 1 changes nothing.
-/
import proofs.«114452_j37538014167585_1_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

noncomputable section

namespace Cert.GemmBody

open Idealize.ShloMosaic Idealize.ShloMosaic.TcCoe Idealize.ShloMosaic.ValueIdx Cert.KernelIdeal Cert.KernelIdeal.Gen

/-- The left operand's row coordinate is the output's row. -/
theorem lhs_axis0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- The left operand's column coordinate is the contraction position. -/
theorem lhs_axis1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- The right operand's row coordinate is the output's column. -/
theorem rhs_axis0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- The right operand's column coordinate is the contraction position. -/
theorem rhs_axis1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of two 1024-row blocks over their 128 columns, into a zero accumulator, at (p, q): the inner product
    of row p of the left block and row q of the right block. -/
theorem matmul_rows_apply (a b : FVec Ideal S1024x128 .bf16) (p q : Fin 1024) :
    matmul dot_S1024x128_S1024x128_S1024x1024_1_1_0_0_n_n none a b (constant S1024x1024 .f32 0x00000000#32) (ix2 p q)
      = ∑ d : Fin 128, a (ix2 p d) * b (ix2 q d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun ax => Fin.ext (by
    match ax with
    | ⟨0, _⟩ => exact lhs_axis0 _ _
    | ⟨1, _⟩ => exact (lhs_axis1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun ax => Fin.ext (by
    match ax with
    | ⟨0, _⟩ => exact rhs_axis0 _ _
    | ⟨1, _⟩ => exact (rhs_axis1 _ _).trans hk)
  rw [el, er]

/-- The float one is the extended real 1. -/
theorem one32 : Ideal.ofBits .f32 0x3F800000#32 = 1 := IdealRules.sign_bit.ideal_onePat .f32

/-- The body's stored value at (p, q). -/
theorem pay2_apply (a b : Vec Ideal S1024x128 .bf16) (p q : Fin 1024) :
    k2_pay1 (F := Ideal) a b (ix2 p q) = ∑ d : Fin 128, a (ix2 p d) * b (ix2 q d) := by
  unfold k2_pay1
  show matmul dot_S1024x128_S1024x128_S1024x1024_1_1_0_0_n_n none (shapeCast S1024x128 a shapeCasts_S1024x128_S1024x128) (shapeCast S1024x128 b shapeCasts_S1024x128_S1024x128)
      (constant S1024x1024 .f32 0x00000000#32) (ix2 p q) * Ideal.ofBits .f32 0x3F800000#32 = _
  rw [shapeCast_self, shapeCast_self, one32, mul_one]
  exact matmul_rows_apply a b p q

end Cert.GemmBody

end
-- ==== Proof.Spec.lean ====
/-
  The function both programs compute, over the extended reals.

  A row x ∈ EReal^64 is encoded by two rectified affine layers and a third affine layer,
      h1 = max(x·W1 + b1, 0),  h2 = max(h1·W2 + b2, 0),  z = h2·W3 + b3   (z ∈ EReal^128),
  and then scaled to unit length, with the length floored at a small positive constant:
      e = z / max(sqrt(Σ_c z_c²), ε).
  The result at (i, j) is the inner product of the encoded i-th row of the first input with the encoded j-th row
  of the second: Σ_d e(x_i)_d · e(y_j)_d.

  Every sum is a finite sum in the commutative monoid of extended reals, so no order of summation is recorded.
  The two float constants (zero in the rectifier, ε in the floor) stay as their bit patterns: both programs spell
  the same patterns, so they are never evaluated.
-/
import Idealize.ShloMosaic.PureOps.Ideal
import Idealize.ShloMosaic.Lib.ValueIdx

noncomputable section

namespace Cert.Spec

open Idealize.ShloMosaic Idealize.ShloMosaic.ValueIdx

/-- The encoder's weights, each entry read by its coordinates. -/
structure Weights where
  W1 : Fin 64 → Fin 512 → EReal
  b1 : Fin 512 → EReal
  W2 : Fin 512 → Fin 512 → EReal
  b2 : Fin 512 → EReal
  W3 : Fin 512 → Fin 128 → EReal
  b3 : Fin 128 → EReal

/-- The rectifier's zero. -/
def zero32 : EReal := Ideal.ofBits .f32 0x00000000#32
/-- The floor under a row's length. -/
def eps32 : EReal := Ideal.ofBits .f32 0x2B8CBCCC#32

/-- First hidden layer of a row: max(x·W1 + b1, 0). -/
def hidden1 (w : Weights) (x : Fin 64 → EReal) (c : Fin 512) : EReal :=
  max ((∑ k : Fin 64, x k * w.W1 k c) + w.b1 c) zero32

/-- Second hidden layer: max(h1·W2 + b2, 0). -/
def hidden2 (w : Weights) (x : Fin 64 → EReal) (c : Fin 512) : EReal :=
  max ((∑ k : Fin 512, hidden1 w x k * w.W2 k c) + w.b2 c) zero32

/-- The latent vector before scaling: h2·W3 + b3. -/
def latent (w : Weights) (x : Fin 64 → EReal) (c : Fin 128) : EReal :=
  (∑ k : Fin 512, hidden2 w x k * w.W3 k c) + w.b3 c

/-- The row's floored length: max(sqrt(Σ z²), ε). -/
def flooredNorm (w : Weights) (x : Fin 64 → EReal) : EReal :=
  max (Ideal.sqrt (∑ c : Fin 128, latent w x c * latent w x c)) eps32

/-- The encoded row: the latent vector over its floored length. -/
def encRow (w : Weights) (x : Fin 64 → EReal) (c : Fin 128) : EReal :=
  Ideal.div (latent w x c) (flooredNorm w x)

/-- The weights as the programs' arguments give them: matrices of rank 2, biases of rank 1. -/
def weightsOf (W1 : (⟨2, ![64, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 128]⟩ : Shape).Idx → EReal) (b3 : (⟨1, ![128]⟩ : Shape).Idx → EReal) : Weights where
  W1 k c := W1 (ix2 k c)
  b1 c := b1 (ix1 c)
  W2 k c := W2 (ix2 k c)
  b2 c := b2 (ix1 c)
  W3 k c := W3 (ix2 k c)
  b3 c := b3 (ix1 c)

/-- The weights as a kernel body loads them: the biases are rows of rank 2 with one row. -/
def weightsOfBlocks (W1 : (⟨2, ![64, 512]⟩ : Shape).Idx → EReal) (b1 : (⟨2, ![1, 512]⟩ : Shape).Idx → EReal)
    (W2 : (⟨2, ![512, 512]⟩ : Shape).Idx → EReal) (b2 : (⟨2, ![1, 512]⟩ : Shape).Idx → EReal)
    (W3 : (⟨2, ![512, 128]⟩ : Shape).Idx → EReal) (b3 : (⟨2, ![1, 128]⟩ : Shape).Idx → EReal) : Weights where
  W1 k c := W1 (ix2 k c)
  b1 c := b1 (ix2 (0 : Fin 1) c)
  W2 k c := W2 (ix2 k c)
  b2 c := b2 (ix2 (0 : Fin 1) c)
  W3 k c := W3 (ix2 k c)
  b3 c := b3 (ix2 (0 : Fin 1) c)

/-- Row `r` of an array of rows. -/
def rowOf {n : ℕ} (x : (⟨2, ![n, 64]⟩ : Shape).Idx → EReal) (r : Fin n) : Fin 64 → EReal := fun k => x (ix2 r k)

/-- Every row of an 8192-row input encoded. -/
def encoded (w : Weights) (x : (⟨2, ![8192, 64]⟩ : Shape).Idx → EReal) : (⟨2, ![8192, 128]⟩ : Shape).Idx → EReal :=
  fun i => encRow w (rowOf x (i 0)) (i 1)

/-- All pairwise inner products of the rows of two arrays. -/
def gram (zx zy : (⟨2, ![8192, 128]⟩ : Shape).Idx → EReal) : (⟨2, ![8192, 8192]⟩ : Shape).Idx → EReal :=
  fun i => ∑ d : Fin 128, zx (ix2 (i 0) d) * zy (ix2 (i 1) d)

/-- The result: pairwise inner products of the encoded rows of the two inputs. -/
def G (x y : (⟨2, ![8192, 64]⟩ : Shape).Idx → EReal)
    (W1 : (⟨2, ![64, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 128]⟩ : Shape).Idx → EReal) (b3 : (⟨1, ![128]⟩ : Shape).Idx → EReal) :
    (⟨2, ![8192, 8192]⟩ : Shape).Idx → EReal :=
  gram (encoded (weightsOf W1 b1 W2 b2 W3 b3) x) (encoded (weightsOf W1 b1 W2 b2 W3 b3) y)

end Cert.Spec

end
-- ==== Proof.GemmRegion.lean ====
/-
  The product call as a whole. Its grid is 8 × 8; point (a, b) reads rows [1024a, 1024a + 1024) of the first encoded
  array and rows [1024b, 1024b + 1024) of the second, and writes the 1024 × 1024 block (a, b) of the result. Each
  written block is the restriction of ONE function of the two encoded arrays, all pairwise inner products of their rows
  (Spec.gram), and the 64 blocks tile the 8192 × 8192 result; so the result array ends holding that function.
-/
import proofs.«114452_j37538014167585_1_alg».proof.Proof.Gen.KernelIdeal.Frame
import proofs.«114452_j37538014167585_1_alg».proof.Proof.GemmBody
import proofs.«114452_j37538014167585_1_alg».proof.Proof.Spec
import Idealize.ShloMosaic.Lib.Pipeline.Value

set_option maxRecDepth 16384

noncomputable section

namespace Cert.GemmRegion

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- One point's block of the product, at an element y of the block: given that the two loaded blocks are the rows of
    the encoded arrays starting at 1024·r0 and 1024·c0, and that the element sits in the result at (1024·r0 + y0,
    1024·c0 + y1), the stored value is the result function there. -/
theorem point_apply (A B : (⟨2, ![8192, 128]⟩ : Shape).Idx → EReal) (a b : Vec Ideal S1024x128 .bf16)
    (ea eb : S1024x128.Idx → S8192x128.Idx) (eo : S1024x1024.Idx → S8192x8192.Idx)
    (ha : ∀ y, a y = A (ea y)) (hb : ∀ y, b y = B (eb y)) (r0 c0 : ℕ)
    (hea0 : ∀ y, (ea y 0).val = r0 * 1024 + 1 * (y 0).val) (hea1 : ∀ y, (ea y 1).val = 0 * 128 + 1 * (y 1).val)
    (heb0 : ∀ y, (eb y 0).val = c0 * 1024 + 1 * (y 0).val) (heb1 : ∀ y, (eb y 1).val = 0 * 128 + 1 * (y 1).val)
    (heo0 : ∀ y, (eo y 0).val = r0 * 1024 + 1 * (y 0).val) (heo1 : ∀ y, (eo y 1).val = c0 * 1024 + 1 * (y 1).val)
    (y : S1024x1024.Idx) : k2_pay1 (F := Ideal) a b y = Cert.Spec.gram A B (eo y) := by
  obtain ⟨p, q, rfl⟩ : ∃ (p q : Fin 1024), y = ix2 p q := ⟨y 0, y 1, eq_ix2 y⟩
  rw [Cert.GemmBody.pay2_apply]
  unfold Cert.Spec.gram
  refine Finset.sum_congr rfl fun d _ => ?_
  rw [ha, hb]
  have e1 : ea (ix2 p d) = ix2 (eo (ix2 p q) 0) d := funext fun ax => Fin.ext (by
    match ax with
    | ⟨0, _⟩ => exact (hea0 (ix2 p d)).trans (heo0 (ix2 p q)).symm
    | ⟨1, _⟩ => exact (hea1 (ix2 p d)).trans (by show 0 * 128 + 1 * d.val = d.val; omega))
  have e2 : eb (ix2 q d) = ix2 (eo (ix2 p q) 1) d := funext fun ax => Fin.ext (by
    match ax with
    | ⟨0, _⟩ => exact (heb0 (ix2 q d)).trans (heo1 (ix2 p q)).symm
    | ⟨1, _⟩ => exact (heb1 (ix2 q d)).trans (by show 0 * 128 + 1 * d.val = d.val; omega))
  exact congrArg₂ (· * ·) (congrArg A e1) (congrArg B e2)

/-- The printed index maps over the grid: the first operand's block row is the output's block row, the second's the
    output's block column, both at block column 0, and the output's block indices range over 8 × 8. -/
theorem index_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7 ∧ win2_2.index t (1 : Fin 2) ≤ 7 :=
  (by decide +kernel : ∀ t : Fin grid2.N, _)

/-- Every block of the 8 × 8 tiling is some point's. -/
theorem index_onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What point t writes back is block t of the pairwise inner products of the two encoded arrays as the call finds them. -/
theorem flushed_eq (c : Dev nD) (t : Fin cfg2.N) :
    (dat2 V c).flushed 2 t = ((cfg2.win 2).blk t).view.read (Elt Ideal) (Cert.Spec.gram (V c main_v3) (V c main_v7)) := by
  show (cfg2.win 2).cut (grid2.coords t) ((dat2 V c).after 2 t) = _
  rw [after2_2]
  unfold out2_2
  rw [View.canon_unit_zero offsets_zero]
  simp only [View.ld_unit_zero (S := S1024x128) offsets_zero]
  obtain ⟨e0, e1, e2, e3, -, -⟩ := index_facts t
  funext j
  show k2_pay1 (F := Ideal) (iblk2 V c 0 t) (iblk2 V c 1 t) j = Cert.Spec.gram (V c main_v3) (V c main_v7) (((cfg2.win 2).blk t).view.emb j)
  exact point_apply (V c main_v3) (V c main_v7) (iblk2 V c 0 t) (iblk2 V c 1 t)
    (((cfg2.win 0).blk t).view.emb) (((cfg2.win 1).blk t).view.emb) (((cfg2.win 2).blk t).view.emb)
    (fun y => rfl) (fun y => rfl) (win2_2.index t (0 : Fin 2)) (win2_2.index t (1 : Fin 2))
    (fun y => by show win2_0.index t (0 : Fin 2) * 1024 + 1 * (y 0).val = _; rw [e0])
    (fun y => by show win2_0.index t (1 : Fin 2) * 128 + 1 * (y 1).val = _; rw [e1])
    (fun y => by show win2_1.index t (0 : Fin 2) * 1024 + 1 * (y 0).val = _; rw [e2])
    (fun y => by show win2_1.index t (1 : Fin 2) * 128 + 1 * (y 1).val = _; rw [e3])
    (fun y => rfl) (fun y => rfl) j

/-- An index of the result is in point t's block iff each coordinate is in the block's range on its axis. -/
theorem mem_blk (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v8).slice (win2_2.rect t)).set ↔ _
  rw [View.set_slice_whole, Rect.mem_set_unit]
  exact Iff.rfl

/-- The 64 blocks cover the result. -/
theorem covered (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the call: all pairwise inner products of the rows of the two encoded arrays. -/
theorem final (c : Dev nD) : (dat2 V c).arrAt 2 cfg2.N = Cert.Spec.gram (V c main_v3) (V c main_v7) :=
  (dat2 V c).arrAt_eq_of_cover 2 (Cert.Spec.gram (V c main_v3) (V c main_v7)) (fun t _ => flushed_eq V c t) covered

end Cert.GemmRegion

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.EncodeBody.lean ====
/-
  One grid point of an encoding call, read at an index: the body's stored value at (p, q) is entry q of the
  encoded p-th row of the point's block of rows (Spec.encRow), the weights being the blocks the body loads.
-/
import proofs.«114452_j37538014167585_1_alg».proof.Proof.Gen.KernelIdeal.Skeleton
import proofs.«114452_j37538014167585_1_alg».proof.Proof.Spec
import proofs.«114452_j37538014167585_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.EncodeBody

open Idealize.ShloMosaic Idealize.ShloMosaic.TcCoe Idealize.ShloMosaic.ValueIdx Cert.KernelIdeal Cert.KernelIdeal.Gen

/-! ### Product 1: the rows' block times the first weight matrix -/

theorem lhs_dot1_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_dot1_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_dot1_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_dot1_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Into a zero accumulator the product at (p, c) is the sum over the contracted coordinate k of left (p, k) times right (k, c). -/
theorem mm1_apply (a : FVec Ideal S512x64 .bf16) (b : FVec Ideal S64x512 .bf16) (p : Fin 512) (c : Fin 512) :
    matmul dot_S512x64_S64x512_S512x512_1_0_0_1_n_n none a b (constant (F := Ideal) S512x512 .f32 0x00000000#32) (ix2 p c)
      = ∑ k : Fin 64, a (ix2 p k) * b (ix2 k c) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p c) ((contrEquiv1 dot_S512x64_S64x512_S512x512_1_0_0_1_n_n 64 rfl rfl).symm k) = ix2 p k := funext fun ax => Fin.ext (by
    match ax with
    | ⟨0, _⟩ => exact lhs_dot1_0 _ _
    | ⟨1, _⟩ => exact (lhs_dot1_1 _ _).trans hk)
  have er : dot_S512x64_S64x512_S512x512_1_0_0_1_n_n.rhsIdx (ix2 p c) ((contrEquiv1 dot_S512x64_S64x512_S512x512_1_0_0_1_n_n 64 rfl rfl).symm k) = ix2 k c := funext fun ax => Fin.ext (by
    match ax with
    | ⟨0, _⟩ => exact (rhs_dot1_0 _ _).trans hk
    | ⟨1, _⟩ => exact rhs_dot1_1 _ _)
  rw [el, er]

/-! ### Product 2: the first hidden layer times the second weight matrix -/

theorem lhs_dot2_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot2_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot2_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot2_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Into a zero accumulator the product at (p, c) is the sum over the contracted coordinate k of left (p, k) times right (k, c). -/
theorem mm2_apply (a : FVec Ideal S512x512 .bf16) (b : FVec Ideal S512x512 .bf16) (p : Fin 512) (c : Fin 512) :
    matmul dot_S512x512_S512x512_S512x512_1_0_0_1_n_n none a b (constant (F := Ideal) S512x512 .f32 0x00000000#32) (ix2 p c)
      = ∑ k : Fin 512, a (ix2 p k) * b (ix2 k c) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p c) ((contrEquiv1 dot_S512x512_S512x512_S512x512_1_0_0_1_n_n 512 rfl rfl).symm k) = ix2 p k := funext fun ax => Fin.ext (by
    match ax with
    | ⟨0, _⟩ => exact lhs_dot2_0 _ _
    | ⟨1, _⟩ => exact (lhs_dot2_1 _ _).trans hk)
  have er : dot_S512x512_S512x512_S512x512_1_0_0_1_n_n.rhsIdx (ix2 p c) ((contrEquiv1 dot_S512x512_S512x512_S512x512_1_0_0_1_n_n 512 rfl rfl).symm k) = ix2 k c := funext fun ax => Fin.ext (by
    match ax with
    | ⟨0, _⟩ => exact (rhs_dot2_0 _ _).trans hk
    | ⟨1, _⟩ => exact rhs_dot2_1 _ _)
  rw [el, er]

/-! ### Product 3: the second hidden layer times the third weight matrix -/

theorem lhs_dot3_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_dot3_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_dot3_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_dot3_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Into a zero accumulator the product at (p, c) is the sum over the contracted coordinate k of left (p, k) times right (k, c). -/
theorem mm3_apply (a : FVec Ideal S512x512 .bf16) (b : FVec Ideal S512x128 .bf16) (p : Fin 512) (c : Fin 128) :
    matmul dot_S512x512_S512x128_S512x128_1_0_0_1_n_n none a b (constant (F := Ideal) S512x128 .f32 0x00000000#32) (ix2 p c)
      = ∑ k : Fin 512, a (ix2 p k) * b (ix2 k c) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p c) ((contrEquiv1 dot_S512x512_S512x128_S512x128_1_0_0_1_n_n 512 rfl rfl).symm k) = ix2 p k := funext fun ax => Fin.ext (by
    match ax with
    | ⟨0, _⟩ => exact lhs_dot3_0 _ _
    | ⟨1, _⟩ => exact (lhs_dot3_1 _ _).trans hk)
  have er : dot_S512x512_S512x128_S512x128_1_0_0_1_n_n.rhsIdx (ix2 p c) ((contrEquiv1 dot_S512x512_S512x128_S512x128_1_0_0_1_n_n 512 rfl rfl).symm k) = ix2 k c := funext fun ax => Fin.ext (by
    match ax with
    | ⟨0, _⟩ => exact (rhs_dot3_0 _ _).trans hk
    | ⟨1, _⟩ => exact rhs_dot3_1 _ _)
  rw [el, er]

/-! ### The sum of a row and the square root, at an index -/

/-- The sum over the second axis at row p is the sum over the columns c of the entries (p, c). -/
theorem rowSum_apply (v : FVec Ideal S512x128 .f32) (h : S512x128.Reduces [1] S512) (hφ : FKind.Formats .f32)
    (hacc : (0x00000000#32 : BitVec 32) = 0x00000000#32) (p : Fin 512) :
    multiReduction (F := Ideal) .add [1] S512 v 0x00000000#32 h hφ hacc (ix1 p) = ∑ c : Fin 128, v (ix2 p c) := by
  refine (Ideal.multiReduction_add_single v _ h hφ hacc (ix1 p)).trans ?_
  refine Finset.sum_congr rfl fun c _ => congrArg v (funext fun ax => Fin.ext ?_)
  match ax with
  | ⟨0, _⟩ => rfl
  | ⟨1, _⟩ => rfl

/-- The square root is taken entry by entry. -/
theorem sqrt_apply {s : Shape} {φ : FTy} (v : FVec Ideal s φ) (i : s.Idx) : sqrt v i = Ideal.sqrt (v i) := rfl

/-- The second call's body is the first's, under another name. -/
theorem k1_pay1_eq : @k1_pay1 Ideal _ = @k0_pay1 Ideal _ := rfl

/-- The first encoding call's stored value at (p, q). -/
theorem pay0_apply (x0 : Vec Ideal S512x64 .f32) (x1 : Vec Ideal S64x512 .f32) (x2 : Vec Ideal S1x512 .f32)
    (x3 : Vec Ideal S512x512 .f32) (x4 : Vec Ideal S1x512 .f32) (x5 : Vec Ideal S512x128 .f32) (x6 : Vec Ideal S1x128 .f32)
    (p : Fin 512) (q : Fin 128) :
    k0_pay1 (F := Ideal) x0 x1 x2 x3 x4 x5 x6 (ix2 p q)
      = Cert.Spec.encRow (Cert.Spec.weightsOfBlocks x1 x2 x3 x4 x5 x6) (Cert.Spec.rowOf (n := 512) x0 p) q := by
  unfold k0_pay1
  simp only [truncf_apply, divf_apply, maximumf_apply, addf_apply, broadcast_apply, sqrt_apply,
    mm1_apply, mm2_apply, mm3_apply, shapeCast_self, broadcastTo_1b_ab_apply, Keepdims.broadcastTo_a1_ab_apply,
    Keepdims.shapeCast_a_a1_apply]
  unfold Spec.encRow Spec.flooredNorm
  refine congrArg₂ Ideal.div ?_ (congrArg₂ max (congrArg Ideal.sqrt ?_) rfl)
  · rfl
  · refine (rowSum_apply _ _ _ _ p).trans (Finset.sum_congr rfl fun c _ => ?_)
    simp only [truncf_apply, maximumf_apply, addf_apply, mulf_apply, broadcast_apply,
      mm1_apply, mm2_apply, mm3_apply, shapeCast_self, broadcastTo_1b_ab_apply]
    rfl

/-- The second encoding call's stored value at (p, q): the same body. -/
theorem pay1_apply (x0 : Vec Ideal S512x64 .f32) (x1 : Vec Ideal S64x512 .f32) (x2 : Vec Ideal S1x512 .f32)
    (x3 : Vec Ideal S512x512 .f32) (x4 : Vec Ideal S1x512 .f32) (x5 : Vec Ideal S512x128 .f32) (x6 : Vec Ideal S1x128 .f32)
    (p : Fin 512) (q : Fin 128) :
    k1_pay1 (F := Ideal) x0 x1 x2 x3 x4 x5 x6 (ix2 p q)
      = Cert.Spec.encRow (Cert.Spec.weightsOfBlocks x1 x2 x3 x4 x5 x6) (Cert.Spec.rowOf (n := 512) x0 p) q := by
  rw [k1_pay1_eq]
  exact pay0_apply x0 x1 x2 x3 x4 x5 x6 p q

end Cert.EncodeBody

end
-- ==== Proof.EncodeRegion0.lean ====
/-
  An encoding call as a whole. Its grid has 16 points; point t reads rows [512t, 512t + 512) of its input and the six
  weight arrays whole (the biases as one-row arrays), and writes rows [512t, 512t + 512) of its output. Each written
  block is the restriction of ONE function of the input and the weights, every row encoded (Spec.encoded), and the
  16 blocks tile the 8192 × 128 output; so the output array ends holding that function.
-/
import proofs.«114452_j37538014167585_1_alg».proof.Proof.Gen.KernelIdeal.Frame
import proofs.«114452_j37538014167585_1_alg».proof.Proof.EncodeBody
import proofs.«114452_j37538014167585_1_alg».proof.Proof.Spec
import Idealize.ShloMosaic.Lib.Pipeline.Value

set_option maxRecDepth 16384

noncomputable section

namespace Cert.EncodeRegion0

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- One point's block, at an element y of it: given that the loaded row block is the rows of the input starting at
    512·r0, that the six weight blocks are the weight arrays themselves, and that the element sits in the output at
    (512·r0 + y0, y1), the stored value is the encoded array there. -/
theorem point_apply (X : (⟨2, ![8192, 64]⟩ : Shape).Idx → EReal)
    (x0 : Vec Ideal S512x64 .f32) (x1 : Vec Ideal S64x512 .f32) (x2 : Vec Ideal S1x512 .f32) (x3 : Vec Ideal S512x512 .f32)
    (x4 : Vec Ideal S1x512 .f32) (x5 : Vec Ideal S512x128 .f32) (x6 : Vec Ideal S1x128 .f32)
    (e0 : S512x64.Idx → S8192x64.Idx) (eo : S512x128.Idx → S8192x128.Idx)
    (h0 : ∀ y, x0 y = X (e0 y)) (r0 : ℕ)
    (he0 : ∀ y, (e0 y 0).val = r0 * 512 + 1 * (y 0).val) (he1 : ∀ y, (e0 y 1).val = 0 * 64 + 1 * (y 1).val)
    (heo0 : ∀ y, (eo y 0).val = r0 * 512 + 1 * (y 0).val) (heo1 : ∀ y, (eo y 1).val = 0 * 128 + 1 * (y 1).val)
    (y : S512x128.Idx) :
    k0_pay1 (F := Ideal) x0 x1 x2 x3 x4 x5 x6 y = Cert.Spec.encoded (Cert.Spec.weightsOfBlocks x1 x2 x3 x4 x5 x6) X (eo y) := by
  obtain ⟨p, q, rfl⟩ : ∃ (p : Fin 512) (q : Fin 128), y = ix2 p q := ⟨y 0, y 1, eq_ix2 y⟩
  rw [Cert.EncodeBody.pay0_apply]
  have hr : Cert.Spec.rowOf (n := 512) x0 p = Cert.Spec.rowOf (n := 8192) X (eo (ix2 p q) 0) := funext fun k => by
    show x0 (ix2 p k) = X (ix2 (eo (ix2 p q) 0) k)
    rw [h0]
    exact congrArg X (funext fun ax => Fin.ext (by
      match ax with
      | ⟨0, _⟩ => exact (he0 (ix2 p k)).trans (heo0 (ix2 p q)).symm
      | ⟨1, _⟩ => exact (he1 (ix2 p k)).trans (by show 0 * 64 + 1 * k.val = k.val; omega)))
  have hq : q = eo (ix2 p q) 1 := Fin.ext ((heo1 (ix2 p q)).trans (by show 0 * 128 + 1 * q.val = q.val; omega)).symm
  show Cert.Spec.encRow _ (Cert.Spec.rowOf (n := 512) x0 p) q = Cert.Spec.encRow _ (Cert.Spec.rowOf (n := 8192) X (eo (ix2 p q) 0)) (eo (ix2 p q) 1)
  rw [hr]
  exact congrArg _ hq

/-- A block that is its whole array, at block index (0, 0), reads the array where it is read. -/
theorem whole_read {S : Shape} (h2 : S.rank = 2) (A : S.Idx → EReal) (e : S.Idx → S.Idx)
    (he : ∀ y a, (e y a).val = 0 * S.size a + 1 * (y a).val) (y : S.Idx) : A (e y) = A y :=
  congrArg A (funext fun a => Fin.ext (by rw [he]; omega))

/-- The printed index maps over the grid: the input's and the output's block row is the point, at block column 0;
    every weight window sits at block (0, 0). -/
theorem index_facts : ∀ t : Fin cfg0.N, win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- What point t writes back is block t of the encoded input, the weights being the arrays as the call finds them. -/
theorem flushed_eq (c : Dev nD) (t : Fin cfg0.N) :
    (dat0 V c).flushed 7 t = ((cfg0.win 7).blk t).view.read (Elt Ideal)
      (Cert.Spec.encoded (Cert.Spec.weightsOfBlocks (V c main_arg2) (V c main_v0) (V c main_arg4) (V c main_v1) (V c main_arg6) (V c main_v2)) (V c main_arg0)) := by
  show (cfg0.win 7).cut (grid0.coords t) ((dat0 V c).after 7 t) = _
  rw [after0_7]
  unfold out0_7
  rw [View.canon_unit_zero offsets_zero]
  simp only [View.ld_unit_zero (S := S512x64) offsets_zero, View.ld_unit_zero (S := S64x512) offsets_zero,
    View.ld_unit_zero (S := S1x512) offsets_zero, View.ld_unit_zero (S := S512x512) offsets_zero,
    View.ld_unit_zero (S := S512x128) offsets_zero, View.ld_unit_zero (S := S1x128) offsets_zero]
  obtain ⟨e0, e1, e2, e3, z1, z2, z3, z4, z5, z6⟩ := index_facts t
  have w1 : iblk0 V c 1 t = V c main_arg2 := funext fun y =>
    whole_read (S := S64x512) rfl (V c main_arg2) (((cfg0.win 1).blk t).view.emb) (fun y a => by
      show win0_1.index t a * S64x512.size a + 1 * (y a).val = _; rw [z1 a]) y
  have w2 : iblk0 V c 2 t = V c main_v0 := funext fun y =>
    whole_read (S := S1x512) rfl (V c main_v0) (((cfg0.win 2).blk t).view.emb) (fun y a => by
      show win0_2.index t a * S1x512.size a + 1 * (y a).val = _; rw [z2 a]) y
  have w3 : iblk0 V c 3 t = V c main_arg4 := funext fun y =>
    whole_read (S := S512x512) rfl (V c main_arg4) (((cfg0.win 3).blk t).view.emb) (fun y a => by
      show win0_3.index t a * S512x512.size a + 1 * (y a).val = _; rw [z3 a]) y
  have w4 : iblk0 V c 4 t = V c main_v1 := funext fun y =>
    whole_read (S := S1x512) rfl (V c main_v1) (((cfg0.win 4).blk t).view.emb) (fun y a => by
      show win0_4.index t a * S1x512.size a + 1 * (y a).val = _; rw [z4 a]) y
  have w5 : iblk0 V c 5 t = V c main_arg6 := funext fun y =>
    whole_read (S := S512x128) rfl (V c main_arg6) (((cfg0.win 5).blk t).view.emb) (fun y a => by
      show win0_5.index t a * S512x128.size a + 1 * (y a).val = _; rw [z5 a]) y
  have w6 : iblk0 V c 6 t = V c main_v2 := funext fun y =>
    whole_read (S := S1x128) rfl (V c main_v2) (((cfg0.win 6).blk t).view.emb) (fun y a => by
      show win0_6.index t a * S1x128.size a + 1 * (y a).val = _; rw [z6 a]) y
  rw [w1, w2, w3, w4, w5, w6]
  funext j
  show k0_pay1 (F := Ideal) (iblk0 V c 0 t) (V c main_arg2) (V c main_v0) (V c main_arg4) (V c main_v1) (V c main_arg6) (V c main_v2) j
    = Cert.Spec.encoded (Cert.Spec.weightsOfBlocks (V c main_arg2) (V c main_v0) (V c main_arg4) (V c main_v1) (V c main_arg6) (V c main_v2)) (V c main_arg0) (((cfg0.win 7).blk t).view.emb j)
  exact point_apply (V c main_arg0) (iblk0 V c 0 t) (V c main_arg2) (V c main_v0) (V c main_arg4) (V c main_v1) (V c main_arg6) (V c main_v2)
    (((cfg0.win 0).blk t).view.emb) (((cfg0.win 7).blk t).view.emb) (fun y => rfl) t.val
    (fun y => by show win0_0.index t (0 : Fin 2) * 512 + 1 * (y 0).val = _; rw [e0])
    (fun y => by show win0_0.index t (1 : Fin 2) * 64 + 1 * (y 1).val = _; rw [e1])
    (fun y => by show win0_7.index t (0 : Fin 2) * 512 + 1 * (y 0).val = _; rw [e2])
    (fun y => by show win0_7.index t (1 : Fin 2) * 128 + 1 * (y 1).val = _; rw [e3]) j

/-- An index of the output is in point t's block iff each coordinate is in the block's range on its axis. -/
theorem mem_blk (t : Fin cfg0.N) (i : S8192x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v3).slice (win0_7.rect t)).set ↔ _
  rw [View.set_slice_whole, Rect.mem_set_unit]
  exact Iff.rfl

/-- The 16 row blocks cover the output: row r lies in the block of point r / 512. -/
theorem covered (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  let t : Fin cfg0.N := ⟨(i 0).val / 512, by show (i 0).val / 512 < 16; omega⟩
  obtain ⟨-, -, e2, e3, -⟩ := index_facts t
  have q0 : win0_7.index t (0 : Fin 2) = (i 0).val / 512 := e2
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

/-- The output array after the call: every row of the input encoded. -/
theorem final (c : Dev nD) : (dat0 V c).arrAt 7 cfg0.N
    = Cert.Spec.encoded (Cert.Spec.weightsOfBlocks (V c main_arg2) (V c main_v0) (V c main_arg4) (V c main_v1) (V c main_arg6) (V c main_v2)) (V c main_arg0) :=
  (dat0 V c).arrAt_eq_of_cover 7 _ (fun t _ => flushed_eq V c t) covered

end Cert.EncodeRegion0

end
-- ==== Proof.EncodeRegion1.lean ====
/-
  An encoding call as a whole. Its grid has 16 points; point t reads rows [512t, 512t + 512) of its input and the six
  weight arrays whole (the biases as one-row arrays), and writes rows [512t, 512t + 512) of its output. Each written
  block is the restriction of ONE function of the input and the weights, every row encoded (Spec.encoded), and the
  16 blocks tile the 8192 × 128 output; so the output array ends holding that function.
-/
import proofs.«114452_j37538014167585_1_alg».proof.Proof.Gen.KernelIdeal.Frame
import proofs.«114452_j37538014167585_1_alg».proof.Proof.EncodeBody
import proofs.«114452_j37538014167585_1_alg».proof.Proof.Spec
import Idealize.ShloMosaic.Lib.Pipeline.Value

set_option maxRecDepth 16384

noncomputable section

namespace Cert.EncodeRegion1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- One point's block, at an element y of it: given that the loaded row block is the rows of the input starting at
    512·r0, that the six weight blocks are the weight arrays themselves, and that the element sits in the output at
    (512·r0 + y0, y1), the stored value is the encoded array there. -/
theorem point_apply (X : (⟨2, ![8192, 64]⟩ : Shape).Idx → EReal)
    (x0 : Vec Ideal S512x64 .f32) (x1 : Vec Ideal S64x512 .f32) (x2 : Vec Ideal S1x512 .f32) (x3 : Vec Ideal S512x512 .f32)
    (x4 : Vec Ideal S1x512 .f32) (x5 : Vec Ideal S512x128 .f32) (x6 : Vec Ideal S1x128 .f32)
    (e0 : S512x64.Idx → S8192x64.Idx) (eo : S512x128.Idx → S8192x128.Idx)
    (h0 : ∀ y, x0 y = X (e0 y)) (r0 : ℕ)
    (he0 : ∀ y, (e0 y 0).val = r0 * 512 + 1 * (y 0).val) (he1 : ∀ y, (e0 y 1).val = 0 * 64 + 1 * (y 1).val)
    (heo0 : ∀ y, (eo y 0).val = r0 * 512 + 1 * (y 0).val) (heo1 : ∀ y, (eo y 1).val = 0 * 128 + 1 * (y 1).val)
    (y : S512x128.Idx) :
    k1_pay1 (F := Ideal) x0 x1 x2 x3 x4 x5 x6 y = Cert.Spec.encoded (Cert.Spec.weightsOfBlocks x1 x2 x3 x4 x5 x6) X (eo y) := by
  obtain ⟨p, q, rfl⟩ : ∃ (p : Fin 512) (q : Fin 128), y = ix2 p q := ⟨y 0, y 1, eq_ix2 y⟩
  rw [Cert.EncodeBody.pay1_apply]
  have hr : Cert.Spec.rowOf (n := 512) x0 p = Cert.Spec.rowOf (n := 8192) X (eo (ix2 p q) 0) := funext fun k => by
    show x0 (ix2 p k) = X (ix2 (eo (ix2 p q) 0) k)
    rw [h0]
    exact congrArg X (funext fun ax => Fin.ext (by
      match ax with
      | ⟨0, _⟩ => exact (he0 (ix2 p k)).trans (heo0 (ix2 p q)).symm
      | ⟨1, _⟩ => exact (he1 (ix2 p k)).trans (by show 0 * 64 + 1 * k.val = k.val; omega)))
  have hq : q = eo (ix2 p q) 1 := Fin.ext ((heo1 (ix2 p q)).trans (by show 0 * 128 + 1 * q.val = q.val; omega)).symm
  show Cert.Spec.encRow _ (Cert.Spec.rowOf (n := 512) x0 p) q = Cert.Spec.encRow _ (Cert.Spec.rowOf (n := 8192) X (eo (ix2 p q) 0)) (eo (ix2 p q) 1)
  rw [hr]
  exact congrArg _ hq

/-- A block that is its whole array, at block index (0, 0), reads the array where it is read. -/
theorem whole_read {S : Shape} (h2 : S.rank = 2) (A : S.Idx → EReal) (e : S.Idx → S.Idx)
    (he : ∀ y a, (e y a).val = 0 * S.size a + 1 * (y a).val) (y : S.Idx) : A (e y) = A y :=
  congrArg A (funext fun a => Fin.ext (by rw [he]; omega))

/-- The printed index maps over the grid: the input's and the output's block row is the point, at block column 0;
    every weight window sits at block (0, 0). -/
theorem index_facts : ∀ t : Fin cfg1.N, win1_0.index t (0 : Fin 2) = t.val ∧ win1_0.index t (1 : Fin 2) = 0
    ∧ win1_7.index t (0 : Fin 2) = t.val ∧ win1_7.index t (1 : Fin 2) = 0
    ∧ (∀ a : Fin 2, win1_1.index t a = 0) ∧ (∀ a : Fin 2, win1_2.index t a = 0) ∧ (∀ a : Fin 2, win1_3.index t a = 0)
    ∧ (∀ a : Fin 2, win1_4.index t a = 0) ∧ (∀ a : Fin 2, win1_5.index t a = 0) ∧ (∀ a : Fin 2, win1_6.index t a = 0) :=
  (by decide +kernel : ∀ t : Fin grid1.N, _)

/-- What point t writes back is block t of the encoded input, the weights being the arrays as the call finds them. -/
theorem flushed_eq (c : Dev nD) (t : Fin cfg1.N) :
    (dat1 V c).flushed 7 t = ((cfg1.win 7).blk t).view.read (Elt Ideal)
      (Cert.Spec.encoded (Cert.Spec.weightsOfBlocks (V c main_arg2) (V c main_v4) (V c main_arg4) (V c main_v5) (V c main_arg6) (V c main_v6)) (V c main_arg1)) := by
  show (cfg1.win 7).cut (grid1.coords t) ((dat1 V c).after 7 t) = _
  rw [after1_7]
  unfold out1_7
  rw [View.canon_unit_zero offsets_zero]
  simp only [View.ld_unit_zero (S := S512x64) offsets_zero, View.ld_unit_zero (S := S64x512) offsets_zero,
    View.ld_unit_zero (S := S1x512) offsets_zero, View.ld_unit_zero (S := S512x512) offsets_zero,
    View.ld_unit_zero (S := S512x128) offsets_zero, View.ld_unit_zero (S := S1x128) offsets_zero]
  obtain ⟨e0, e1, e2, e3, z1, z2, z3, z4, z5, z6⟩ := index_facts t
  have w1 : iblk1 V c 1 t = V c main_arg2 := funext fun y =>
    whole_read (S := S64x512) rfl (V c main_arg2) (((cfg1.win 1).blk t).view.emb) (fun y a => by
      show win1_1.index t a * S64x512.size a + 1 * (y a).val = _; rw [z1 a]) y
  have w2 : iblk1 V c 2 t = V c main_v4 := funext fun y =>
    whole_read (S := S1x512) rfl (V c main_v4) (((cfg1.win 2).blk t).view.emb) (fun y a => by
      show win1_2.index t a * S1x512.size a + 1 * (y a).val = _; rw [z2 a]) y
  have w3 : iblk1 V c 3 t = V c main_arg4 := funext fun y =>
    whole_read (S := S512x512) rfl (V c main_arg4) (((cfg1.win 3).blk t).view.emb) (fun y a => by
      show win1_3.index t a * S512x512.size a + 1 * (y a).val = _; rw [z3 a]) y
  have w4 : iblk1 V c 4 t = V c main_v5 := funext fun y =>
    whole_read (S := S1x512) rfl (V c main_v5) (((cfg1.win 4).blk t).view.emb) (fun y a => by
      show win1_4.index t a * S1x512.size a + 1 * (y a).val = _; rw [z4 a]) y
  have w5 : iblk1 V c 5 t = V c main_arg6 := funext fun y =>
    whole_read (S := S512x128) rfl (V c main_arg6) (((cfg1.win 5).blk t).view.emb) (fun y a => by
      show win1_5.index t a * S512x128.size a + 1 * (y a).val = _; rw [z5 a]) y
  have w6 : iblk1 V c 6 t = V c main_v6 := funext fun y =>
    whole_read (S := S1x128) rfl (V c main_v6) (((cfg1.win 6).blk t).view.emb) (fun y a => by
      show win1_6.index t a * S1x128.size a + 1 * (y a).val = _; rw [z6 a]) y
  rw [w1, w2, w3, w4, w5, w6]
  funext j
  show k1_pay1 (F := Ideal) (iblk1 V c 0 t) (V c main_arg2) (V c main_v4) (V c main_arg4) (V c main_v5) (V c main_arg6) (V c main_v6) j
    = Cert.Spec.encoded (Cert.Spec.weightsOfBlocks (V c main_arg2) (V c main_v4) (V c main_arg4) (V c main_v5) (V c main_arg6) (V c main_v6)) (V c main_arg1) (((cfg1.win 7).blk t).view.emb j)
  exact point_apply (V c main_arg1) (iblk1 V c 0 t) (V c main_arg2) (V c main_v4) (V c main_arg4) (V c main_v5) (V c main_arg6) (V c main_v6)
    (((cfg1.win 0).blk t).view.emb) (((cfg1.win 7).blk t).view.emb) (fun y => rfl) t.val
    (fun y => by show win1_0.index t (0 : Fin 2) * 512 + 1 * (y 0).val = _; rw [e0])
    (fun y => by show win1_0.index t (1 : Fin 2) * 64 + 1 * (y 1).val = _; rw [e1])
    (fun y => by show win1_7.index t (0 : Fin 2) * 512 + 1 * (y 0).val = _; rw [e2])
    (fun y => by show win1_7.index t (1 : Fin 2) * 128 + 1 * (y 1).val = _; rw [e3]) j

/-- An index of the output is in point t's block iff each coordinate is in the block's range on its axis. -/
theorem mem_blk (t : Fin cfg1.N) (i : S8192x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v7).slice (win1_7.rect t)).set ↔ _
  rw [View.set_slice_whole, Rect.mem_set_unit]
  exact Iff.rfl

/-- The 16 row blocks cover the output: row r lies in the block of point r / 512. -/
theorem covered (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  let t : Fin cfg1.N := ⟨(i 0).val / 512, by show (i 0).val / 512 < 16; omega⟩
  obtain ⟨-, -, e2, e3, -⟩ := index_facts t
  have q0 : win1_7.index t (0 : Fin 2) = (i 0).val / 512 := e2
  refine ⟨t, flush1_7 t, ?_⟩
  rw [mem_blk]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 128 ≤ (i 1).val ∧ (i 1).val < win1_7.index t (1 : Fin 2) * 128 + 128; omega

/-- The output array after the call: every row of the input encoded. -/
theorem final (c : Dev nD) : (dat1 V c).arrAt 7 cfg1.N
    = Cert.Spec.encoded (Cert.Spec.weightsOfBlocks (V c main_arg2) (V c main_v4) (V c main_arg4) (V c main_v5) (V c main_arg6) (V c main_v6)) (V c main_arg1) :=
  (dat1 V c).arrAt_eq_of_cover 7 _ (fun t _ => flushed_eq V c t) covered

end Cert.EncodeRegion1

end
-- ==== Proof.KernelValue.lean ====
/-
  The kernel program's result as one function of its arguments.

  The program is three calls among reshapes of the three biases to one-row arrays: the first call encodes every row of
  the first input, the second every row of the second input (the same weights), the third takes all pairwise inner
  products of the two encoded arrays. Reading the buffer contents boundary by boundary — a reshaped bias read at
  (0, c) is the bias at c; a buffer no operation and no call writes holds what it held at launch; a call's output
  array holds what its blocks leave — the result array ends holding the specification's function (Spec.G) of the
  eight arguments.
-/
import proofs.«114452_j37538014167585_1_alg».proof.Proof.Gen.KernelIdeal.Frame
import proofs.«114452_j37538014167585_1_alg».proof.Proof.KernelRun
import proofs.«114452_j37538014167585_1_alg».proof.Proof.GemmRegion
import proofs.«114452_j37538014167585_1_alg».proof.Proof.EncodeRegion0
import proofs.«114452_j37538014167585_1_alg».proof.Proof.EncodeRegion1
import proofs.«114452_j37538014167585_1_alg».proof.Proof.Spec
import Idealize.ShloMosaic.Lib.StableHlo.Run
import Idealize.ShloMosaic.Lib.ValueLayout

set_option maxRecDepth 16384

noncomputable section

namespace Cert.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Biases reshaped to one-row arrays give the same weights as the biases themselves. -/
theorem weights_of_reshaped (W1 : (⟨2, ![64, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 128]⟩ : Shape).Idx → EReal) (b3 : (⟨1, ![128]⟩ : Shape).Idx → EReal)
    (h1 h2 : (⟨1, ![512]⟩ : Shape).ShapeCasts ⟨2, ![1, 512]⟩) (h3 : (⟨1, ![128]⟩ : Shape).ShapeCasts ⟨2, ![1, 128]⟩) :
    Cert.Spec.weightsOfBlocks W1 (shapeCast ⟨2, ![1, 512]⟩ b1 h1) W2 (shapeCast ⟨2, ![1, 512]⟩ b2 h2) W3 (shapeCast ⟨2, ![1, 128]⟩ b3 h3)
      = Cert.Spec.weightsOf W1 b1 W2 b2 W3 b3 := by
  unfold Cert.Spec.weightsOfBlocks Cert.Spec.weightsOf
  simp only [shapeCast_a_1a_apply]

/-! ## The first call's entry contents -/

theorem V1_arg0 (c : Dev nD) : V1 m ρ c main_arg0 = m ((c : Thread nD τ).loc main_arg0) :=
  StableHlo.after_of_forall_not_mem _ _ (List.forall_iff_forall_mem.mp (by
      simp only [hostOps0, List.Forall, StableHlo.reshape_writes, Finset.mem_singleton]
      repeat' apply And.intro
      all_goals exact StableHlo.devRef_ne_of_ne (by decide)))
theorem V1_arg2 (c : Dev nD) : V1 m ρ c main_arg2 = m ((c : Thread nD τ).loc main_arg2) :=
  StableHlo.after_of_forall_not_mem _ _ (List.forall_iff_forall_mem.mp (by
      simp only [hostOps0, List.Forall, StableHlo.reshape_writes, Finset.mem_singleton]
      repeat' apply And.intro
      all_goals exact StableHlo.devRef_ne_of_ne (by decide)))
theorem V1_arg4 (c : Dev nD) : V1 m ρ c main_arg4 = m ((c : Thread nD τ).loc main_arg4) :=
  StableHlo.after_of_forall_not_mem _ _ (List.forall_iff_forall_mem.mp (by
      simp only [hostOps0, List.Forall, StableHlo.reshape_writes, Finset.mem_singleton]
      repeat' apply And.intro
      all_goals exact StableHlo.devRef_ne_of_ne (by decide)))
theorem V1_arg6 (c : Dev nD) : V1 m ρ c main_arg6 = m ((c : Thread nD τ).loc main_arg6) :=
  StableHlo.after_of_forall_not_mem _ _ (List.forall_iff_forall_mem.mp (by
      simp only [hostOps0, List.Forall, StableHlo.reshape_writes, Finset.mem_singleton]
      repeat' apply And.intro
      all_goals exact StableHlo.devRef_ne_of_ne (by decide)))
theorem V1_v0 (c : Dev nD) : V1 m ρ c main_v0 = shapeCast S1x512 (m ((c : Thread nD τ).loc main_arg3)) shapeCasts_S512_S1x512 := by
  show StableHlo.after hostOps0 (W0 m ρ c) (Proc.devRef .tc main_v0) = _
  after_results
  rfl
theorem V1_v1 (c : Dev nD) : V1 m ρ c main_v1 = shapeCast S1x512 (m ((c : Thread nD τ).loc main_arg5)) shapeCasts_S512_S1x512 := by
  show StableHlo.after hostOps0 (W0 m ρ c) (Proc.devRef .tc main_v1) = _
  after_results
  rfl
theorem V1_v2 (c : Dev nD) : V1 m ρ c main_v2 = shapeCast S1x128 (m ((c : Thread nD τ).loc main_arg7)) shapeCasts_S128_S1x128 := by
  show StableHlo.after hostOps0 (W0 m ρ c) (Proc.devRef .tc main_v2) = _
  after_results
  rfl

/-- The first encoded array: every row of the first input encoded. -/
theorem encoded_x (c : Dev nD) : (dat0 (V1 m ρ) c).arrAt 7 cfg0.N
    = Cert.Spec.encoded (Cert.Spec.weightsOf (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))) (m ((c : Thread nD τ).loc main_arg0)) := by
  rw [Cert.EncodeRegion0.final (V1 m ρ) c, V1_arg0, V1_arg2, V1_arg4, V1_arg6, V1_v0, V1_v1, V1_v2]
  exact congrArg (fun w => Cert.Spec.encoded w _) (weights_of_reshaped _ _ _ _ _ _ _ _ _)

/-! ## The second call's entry contents: the first call wrote none of these buffers -/

/-- A buffer that is an input array of the first call, or none of its arrays, and that no reshape writes, holds at the
    second call's entry what it held at launch. -/
theorem W2_arg1 (c : Dev nD) : W2 m ρ c (Proc.devRef .tc main_arg1) = m ((c : Thread nD τ).loc main_arg1) :=
  (W2_of_ne m ρ c main_arg1 (by decide)).trans (StableHlo.after_of_forall_not_mem _ _ (List.forall_iff_forall_mem.mp (by
      simp only [hostOps0, List.Forall, StableHlo.reshape_writes, Finset.mem_singleton]
      repeat' apply And.intro
      all_goals exact StableHlo.devRef_ne_of_ne (by decide))))
theorem W2_arg3 (c : Dev nD) : W2 m ρ c (Proc.devRef .tc main_arg3) = m ((c : Thread nD τ).loc main_arg3) :=
  (W2_of_ne m ρ c main_arg3 (by decide)).trans (StableHlo.after_of_forall_not_mem _ _ (List.forall_iff_forall_mem.mp (by
      simp only [hostOps0, List.Forall, StableHlo.reshape_writes, Finset.mem_singleton]
      repeat' apply And.intro
      all_goals exact StableHlo.devRef_ne_of_ne (by decide))))
theorem W2_arg5 (c : Dev nD) : W2 m ρ c (Proc.devRef .tc main_arg5) = m ((c : Thread nD τ).loc main_arg5) :=
  (W2_of_ne m ρ c main_arg5 (by decide)).trans (StableHlo.after_of_forall_not_mem _ _ (List.forall_iff_forall_mem.mp (by
      simp only [hostOps0, List.Forall, StableHlo.reshape_writes, Finset.mem_singleton]
      repeat' apply And.intro
      all_goals exact StableHlo.devRef_ne_of_ne (by decide))))
theorem W2_arg7 (c : Dev nD) : W2 m ρ c (Proc.devRef .tc main_arg7) = m ((c : Thread nD τ).loc main_arg7) :=
  (W2_of_ne m ρ c main_arg7 (by decide)).trans (StableHlo.after_of_forall_not_mem _ _ (List.forall_iff_forall_mem.mp (by
      simp only [hostOps0, List.Forall, StableHlo.reshape_writes, Finset.mem_singleton]
      repeat' apply And.intro
      all_goals exact StableHlo.devRef_ne_of_ne (by decide))))
theorem W2_arg2 (c : Dev nD) : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans (V1_arg2 m ρ c)
theorem W2_arg4 (c : Dev nD) : W2 m ρ c (Proc.devRef .tc main_arg4) = m ((c : Thread nD τ).loc main_arg4) :=
  ((W2_arr m ρ c 3).trans (((dat0 (V1 m ρ) c).arrAt_in 3 rfl _).trans (A_eq0 (V1 m ρ) c 3))).trans (V1_arg4 m ρ c)
theorem W2_arg6 (c : Dev nD) : W2 m ρ c (Proc.devRef .tc main_arg6) = m ((c : Thread nD τ).loc main_arg6) :=
  ((W2_arr m ρ c 5).trans (((dat0 (V1 m ρ) c).arrAt_in 5 rfl _).trans (A_eq0 (V1 m ρ) c 5))).trans (V1_arg6 m ρ c)

theorem V3_arg1 (c : Dev nD) : V3 m ρ c main_arg1 = m ((c : Thread nD τ).loc main_arg1) :=
  (StableHlo.after_of_forall_not_mem _ _ (List.forall_iff_forall_mem.mp (by
      simp only [hostOps1, List.Forall, StableHlo.reshape_writes, Finset.mem_singleton]
      repeat' apply And.intro
      all_goals exact StableHlo.devRef_ne_of_ne (by decide)))).trans (W2_arg1 m ρ c)
theorem V3_arg2 (c : Dev nD) : V3 m ρ c main_arg2 = m ((c : Thread nD τ).loc main_arg2) :=
  (StableHlo.after_of_forall_not_mem _ _ (List.forall_iff_forall_mem.mp (by
      simp only [hostOps1, List.Forall, StableHlo.reshape_writes, Finset.mem_singleton]
      repeat' apply And.intro
      all_goals exact StableHlo.devRef_ne_of_ne (by decide)))).trans (W2_arg2 m ρ c)
theorem V3_arg4 (c : Dev nD) : V3 m ρ c main_arg4 = m ((c : Thread nD τ).loc main_arg4) :=
  (StableHlo.after_of_forall_not_mem _ _ (List.forall_iff_forall_mem.mp (by
      simp only [hostOps1, List.Forall, StableHlo.reshape_writes, Finset.mem_singleton]
      repeat' apply And.intro
      all_goals exact StableHlo.devRef_ne_of_ne (by decide)))).trans (W2_arg4 m ρ c)
theorem V3_arg6 (c : Dev nD) : V3 m ρ c main_arg6 = m ((c : Thread nD τ).loc main_arg6) :=
  (StableHlo.after_of_forall_not_mem _ _ (List.forall_iff_forall_mem.mp (by
      simp only [hostOps1, List.Forall, StableHlo.reshape_writes, Finset.mem_singleton]
      repeat' apply And.intro
      all_goals exact StableHlo.devRef_ne_of_ne (by decide)))).trans (W2_arg6 m ρ c)
theorem V3_v4 (c : Dev nD) : V3 m ρ c main_v4 = shapeCast S1x512 (m ((c : Thread nD τ).loc main_arg3)) shapeCasts_S512_S1x512 := by
  show StableHlo.after hostOps1 (W2 m ρ c) (Proc.devRef .tc main_v4) = _
  after_results
  rw [W2_arg3]
  rfl
theorem V3_v5 (c : Dev nD) : V3 m ρ c main_v5 = shapeCast S1x512 (m ((c : Thread nD τ).loc main_arg5)) shapeCasts_S512_S1x512 := by
  show StableHlo.after hostOps1 (W2 m ρ c) (Proc.devRef .tc main_v5) = _
  after_results
  rw [W2_arg5]
  rfl
theorem V3_v6 (c : Dev nD) : V3 m ρ c main_v6 = shapeCast S1x128 (m ((c : Thread nD τ).loc main_arg7)) shapeCasts_S128_S1x128 := by
  show StableHlo.after hostOps1 (W2 m ρ c) (Proc.devRef .tc main_v6) = _
  after_results
  rw [W2_arg7]
  rfl

/-- The second encoded array: every row of the second input encoded, with the same weights. -/
theorem encoded_y (c : Dev nD) : (dat1 (V3 m ρ) c).arrAt 7 cfg1.N
    = Cert.Spec.encoded (Cert.Spec.weightsOf (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))) (m ((c : Thread nD τ).loc main_arg1)) := by
  rw [Cert.EncodeRegion1.final (V3 m ρ) c, V3_arg1, V3_arg2, V3_arg4, V3_arg6, V3_v4, V3_v5, V3_v6]
  exact congrArg (fun w => Cert.Spec.encoded w _) (weights_of_reshaped _ _ _ _ _ _ _ _ _)

/-! ## The third call's entry contents: the two encoded arrays -/

theorem V4_v7 (c : Dev nD) : V4 m ρ c main_v7 = (dat1 (V3 m ρ) c).arrAt 7 cfg1.N := W4_arr m ρ c 7

theorem V4_v3 (c : Dev nD) : V4 m ρ c main_v3 = (dat0 (V1 m ρ) c).arrAt 7 cfg0.N :=
  (W4_of_ne m ρ c main_v3 (by decide)).trans ((StableHlo.after_of_forall_not_mem _ _ (List.forall_iff_forall_mem.mp (by
      simp only [hostOps1, List.Forall, StableHlo.reshape_writes, Finset.mem_singleton]
      repeat' apply And.intro
      all_goals exact StableHlo.devRef_ne_of_ne (by decide)))).trans (W2_arr m ρ c 7))

/-- The result array at the last boundary is the specification's function of the arguments as launched. -/
theorem out_eq (c : Dev nD) : W5 m ρ c (Proc.devRef .tc main_v8)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W5_arr m ρ c 2).trans ?_
  rw [Cert.GemmRegion.final (V4 m ρ) c, V4_v3, V4_v7, encoded_x, encoded_y]
  rfl

/-- The kernel program's run: the result array ends at the specification's function, the arguments as launched. -/
theorem run : θ_run defs (onTc (τ := τ) (main (F := Ideal))) ⟨m, fun _ => 0, ρ⟩ (fun r => ∀ c : Dev nD,
      r.2.mem ((c.tc : Thread nD τ).loc main_v8) = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.RunOut.run_out m ρ)

end Cert.KernelValue

end
-- ==== Proof.RefValue.lean ====
/-
  The reference's result, read one operation at a time, is the specification's function of the arguments:
  entry (i, j) is the inner product of the encoded i-th row of the first input and the encoded j-th row of the second.
-/
import proofs.«114452_j37538014167585_1_alg».proof.Proof.Gen.ReferenceIdeal.Run
import proofs.«114452_j37538014167585_1_alg».proof.Proof.Gen.ReferenceIdeal.Read
import proofs.«114452_j37538014167585_1_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.TcCoe Idealize.ShloMosaic.ValueIdx Cert.ReferenceIdeal Cert.ReferenceIdeal.Read

/-- Two rank-2 indices with the same coordinates are equal. -/
local macro "idx2" : tactic => `(tactic| exact funext fun a => by match a with | ⟨0, _⟩ => rfl | ⟨1, _⟩ => rfl)
/-- Two rank-1 indices with the same coordinate are equal. -/
local macro "idx1" : tactic => `(tactic| exact funext fun a => by match a with | ⟨0, _⟩ => rfl)

/-! ### The first encoder, layer by layer: each stage of the reference, at a row and a column, is the specification's
    function of that row of the first input. -/

/-- First hidden layer: the product with W1, the bias added along the rows, and the rectifier. -/
theorem hidden1_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 512) :
    val_main_v4 (F := Ideal) x0 x2 x3 (ix2 r c) = Spec.hidden1 (Spec.weightsOf x2 x3 x4 x5 x6 x7) (Spec.rowOf x0 r) c := by
  rw [val_main_v4_apply, val_main_v3_apply, val_main_v0_apply, val_main_v2_apply, val_main_v1_apply, val_main_call0_v0_apply, val_main_call0_cst_apply]
  simp only [Ideal.addf_def, Ideal.maximumf_def, Ideal.ofBits_def]
  unfold Spec.hidden1 Spec.weightsOf Spec.rowOf Spec.zero32
  refine congrArg₂ max (congrArg₂ (· + ·) (Finset.sum_congr rfl fun k _ => ?_) ?_) rfl
  · exact congrArg₂ (· * ·) (congrArg x0 (by idx2)) (congrArg x2 (by idx2))
  · exact congrArg x3 (by idx1)

/-- Second hidden layer: the product of the first with W2, the bias, the rectifier. -/
theorem hidden2_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 512) :
    val_main_v9 (F := Ideal) x0 x2 x3 x4 x5 (ix2 r c) = Spec.hidden2 (Spec.weightsOf x2 x3 x4 x5 x6 x7) (Spec.rowOf x0 r) c := by
  rw [val_main_v9_apply, val_main_v8_apply, val_main_v5_apply, val_main_v7_apply, val_main_v6_apply, val_main_call1_v0_apply, val_main_call1_cst_apply]
  simp only [Ideal.addf_def, Ideal.maximumf_def, Ideal.ofBits_def]
  unfold Spec.hidden2 Spec.zero32
  refine congrArg₂ max (congrArg₂ (· + ·) (Finset.sum_congr rfl fun k _ => ?_) ?_) rfl
  · have hl : lidx_main_v5 (ix2 r c) k = ix2 r k := by idx2
    rw [hl, hidden1_x x0 x2 x3 x4 x5 x6 x7 r k]
    exact congrArg (_ * ·) (congrArg x4 (by idx2))
  · exact congrArg x5 (by idx1)

/-- The latent vector: the product of the second hidden layer with W3, and the bias. -/
theorem latent_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 128) :
    val_main_v13 (F := Ideal) x0 x2 x3 x4 x5 x6 x7 (ix2 r c) = Spec.latent (Spec.weightsOf x2 x3 x4 x5 x6 x7) (Spec.rowOf x0 r) c := by
  rw [val_main_v13_apply, val_main_v10_apply, val_main_v12_apply, val_main_v11_apply]
  simp only [Ideal.addf_def]
  unfold Spec.latent
  refine congrArg₂ (· + ·) (Finset.sum_congr rfl fun k _ => ?_) ?_
  · have hl : lidx_main_v10 (ix2 r c) k = ix2 r k := by idx2
    rw [hl, hidden2_x x0 x2 x3 x4 x5 x6 x7 r k]
    exact congrArg (_ * ·) (congrArg x6 (by idx2))
  · exact congrArg x7 (by idx1)

/-- The floored length of a row: the root of the sum of the latent vector's squares (the sum starts from zero),
    floored at ε. It is kept as a column, read at its one column. -/
theorem norm_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) :
    val_main_v19 (F := Ideal) x0 x2 x3 x4 x5 x6 x7 (ix2 r (0 : Fin 1)) = Spec.flooredNorm (Spec.weightsOf x2 x3 x4 x5 x6 x7) (Spec.rowOf x0 r) := by
  rw [val_main_v19_apply, val_main_v17_apply, val_main_v16_apply, val_main_v15_apply, val_main_v18_apply, val_main_cst_0_apply, val_main_cst_apply]
  simp only [Ideal.maximumf_def, Ideal.hostUnary_sqrt_def, Ideal.ofBits_def, Ideal.ofBits_zero_f32, zero_add]
  unfold Spec.flooredNorm Spec.eps32
  refine congrArg₂ max (congrArg Ideal.sqrt (Finset.sum_congr rfl fun k _ => ?_)) rfl
  have hi : idx_main_v15 (idx_main_v16 (ix2 r (0 : Fin 1))) k = ix2 r k := by idx2
  rw [val_main_v14_apply, hi, Ideal.mulf_def, latent_x x0 x2 x3 x4 x5 x6 x7 r k]

/-- The encoded row: the latent vector over the row's floored length, which is read back along the row. -/
theorem encRow_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 128) :
    val_main_v21 (F := Ideal) x0 x2 x3 x4 x5 x6 x7 (ix2 r c) = Spec.encRow (Spec.weightsOf x2 x3 x4 x5 x6 x7) (Spec.rowOf x0 r) c := by
  have hi : idx_main_v20 (ix2 r c) = ix2 r (0 : Fin 1) := by idx2
  rw [val_main_v21_apply, val_main_v20_apply, hi, latent_x x0 x2 x3 x4 x5 x6 x7 r c, norm_x x0 x2 x3 x4 x5 x6 x7 r,
    Ideal.hostDivf_def]
  rfl

/-- The first encoder's result is every row of the first input encoded. -/
theorem encoded_x (x0 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) :
    val_main_v21 (F := Ideal) x0 x2 x3 x4 x5 x6 x7 = Spec.encoded (Spec.weightsOf x2 x3 x4 x5 x6 x7) x0 := by
  funext i
  obtain ⟨r, c, rfl⟩ : ∃ r c, i = ix2 r c := ⟨i 0, i 1, eq_ix2 i⟩
  exact encRow_x x0 x2 x3 x4 x5 x6 x7 r c

/-! ### The second encoder, layer by layer: each stage of the reference, at a row and a column, is the specification's
    function of that row of the second input. -/

/-- First hidden layer: the product with W1, the bias added along the rows, and the rectifier. -/
theorem hidden1_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 512) :
    val_main_v26 (F := Ideal) x1 x2 x3 (ix2 r c) = Spec.hidden1 (Spec.weightsOf x2 x3 x4 x5 x6 x7) (Spec.rowOf x1 r) c := by
  rw [val_main_v26_apply, val_main_v25_apply, val_main_v22_apply, val_main_v24_apply, val_main_v23_apply, val_main_call2_v0_apply, val_main_call2_cst_apply]
  simp only [Ideal.addf_def, Ideal.maximumf_def, Ideal.ofBits_def]
  unfold Spec.hidden1 Spec.weightsOf Spec.rowOf Spec.zero32
  refine congrArg₂ max (congrArg₂ (· + ·) (Finset.sum_congr rfl fun k _ => ?_) ?_) rfl
  · exact congrArg₂ (· * ·) (congrArg x1 (by idx2)) (congrArg x2 (by idx2))
  · exact congrArg x3 (by idx1)

/-- Second hidden layer: the product of the first with W2, the bias, the rectifier. -/
theorem hidden2_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 512) :
    val_main_v31 (F := Ideal) x1 x2 x3 x4 x5 (ix2 r c) = Spec.hidden2 (Spec.weightsOf x2 x3 x4 x5 x6 x7) (Spec.rowOf x1 r) c := by
  rw [val_main_v31_apply, val_main_v30_apply, val_main_v27_apply, val_main_v29_apply, val_main_v28_apply, val_main_call3_v0_apply, val_main_call3_cst_apply]
  simp only [Ideal.addf_def, Ideal.maximumf_def, Ideal.ofBits_def]
  unfold Spec.hidden2 Spec.zero32
  refine congrArg₂ max (congrArg₂ (· + ·) (Finset.sum_congr rfl fun k _ => ?_) ?_) rfl
  · have hl : lidx_main_v27 (ix2 r c) k = ix2 r k := by idx2
    rw [hl, hidden1_y x1 x2 x3 x4 x5 x6 x7 r k]
    exact congrArg (_ * ·) (congrArg x4 (by idx2))
  · exact congrArg x5 (by idx1)

/-- The latent vector: the product of the second hidden layer with W3, and the bias. -/
theorem latent_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 128) :
    val_main_v35 (F := Ideal) x1 x2 x3 x4 x5 x6 x7 (ix2 r c) = Spec.latent (Spec.weightsOf x2 x3 x4 x5 x6 x7) (Spec.rowOf x1 r) c := by
  rw [val_main_v35_apply, val_main_v32_apply, val_main_v34_apply, val_main_v33_apply]
  simp only [Ideal.addf_def]
  unfold Spec.latent
  refine congrArg₂ (· + ·) (Finset.sum_congr rfl fun k _ => ?_) ?_
  · have hl : lidx_main_v32 (ix2 r c) k = ix2 r k := by idx2
    rw [hl, hidden2_y x1 x2 x3 x4 x5 x6 x7 r k]
    exact congrArg (_ * ·) (congrArg x6 (by idx2))
  · exact congrArg x7 (by idx1)

/-- The floored length of a row: the root of the sum of the latent vector's squares (the sum starts from zero),
    floored at ε. It is kept as a column, read at its one column. -/
theorem norm_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) :
    val_main_v41 (F := Ideal) x1 x2 x3 x4 x5 x6 x7 (ix2 r (0 : Fin 1)) = Spec.flooredNorm (Spec.weightsOf x2 x3 x4 x5 x6 x7) (Spec.rowOf x1 r) := by
  rw [val_main_v41_apply, val_main_v39_apply, val_main_v38_apply, val_main_v37_apply, val_main_v40_apply, val_main_cst_2_apply, val_main_cst_1_apply]
  simp only [Ideal.maximumf_def, Ideal.hostUnary_sqrt_def, Ideal.ofBits_def, Ideal.ofBits_zero_f32, zero_add]
  unfold Spec.flooredNorm Spec.eps32
  refine congrArg₂ max (congrArg Ideal.sqrt (Finset.sum_congr rfl fun k _ => ?_)) rfl
  have hi : idx_main_v37 (idx_main_v38 (ix2 r (0 : Fin 1))) k = ix2 r k := by idx2
  rw [val_main_v36_apply, hi, Ideal.mulf_def, latent_y x1 x2 x3 x4 x5 x6 x7 r k]

/-- The encoded row: the latent vector over the row's floored length, which is read back along the row. -/
theorem encRow_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) (r : Fin 8192) (c : Fin 128) :
    val_main_v43 (F := Ideal) x1 x2 x3 x4 x5 x6 x7 (ix2 r c) = Spec.encRow (Spec.weightsOf x2 x3 x4 x5 x6 x7) (Spec.rowOf x1 r) c := by
  have hi : idx_main_v42 (ix2 r c) = ix2 r (0 : Fin 1) := by idx2
  rw [val_main_v43_apply, val_main_v42_apply, hi, latent_y x1 x2 x3 x4 x5 x6 x7 r c, norm_y x1 x2 x3 x4 x5 x6 x7 r,
    Ideal.hostDivf_def]
  rfl

/-- The second encoder's result is every row of the second input encoded. -/
theorem encoded_y (x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) :
    val_main_v43 (F := Ideal) x1 x2 x3 x4 x5 x6 x7 = Spec.encoded (Spec.weightsOf x2 x3 x4 x5 x6 x7) x1 := by
  funext i
  obtain ⟨r, c, rfl⟩ : ∃ r c, i = ix2 r c := ⟨i 0, i 1, eq_ix2 i⟩
  exact encRow_y x1 x2 x3 x4 x5 x6 x7 r c

/-! ### The product of the two encodings, and the division by one -/

/-- Dividing an extended real by one leaves it unchanged. -/
private theorem div_one_ereal (a : EReal) : Ideal.div a 1 = a := by
  rw [Ideal.div, if_neg one_ne_zero, inv_one, mul_one]

/-- The reference's last stage is the specification. -/
theorem ref_eq (x0 x1 : FVec Ideal S8192x64 .f32) (x2 : FVec Ideal S64x512 .f32) (x3 : FVec Ideal S512 .f32)
    (x4 : FVec Ideal S512x512 .f32) (x5 : FVec Ideal S512 .f32) (x6 : FVec Ideal S512x128 .f32) (x7 : FVec Ideal S128 .f32) :
    val_main_v46 (F := Ideal) x0 x1 x2 x3 x4 x5 x6 x7 = Cert.Spec.G x0 x1 x2 x3 x4 x5 x6 x7 := by
  funext i
  obtain ⟨p, q, rfl⟩ : ∃ p q, i = ix2 p q := ⟨i 0, i 1, eq_ix2 i⟩
  have one : Ideal.ofBits .f32 0x3F800000#32 = 1 := IdealRules.sign_bit.ideal_onePat .f32
  rw [val_main_v46_apply, val_main_v45_apply, val_main_cst_3_apply, val_main_v44_apply, Ideal.hostDivf_def, Ideal.ofBits_def,
    one, div_one_ereal, encoded_x, encoded_y]
  unfold Spec.G Spec.gram
  refine Finset.sum_congr rfl fun d _ => ?_
  exact congrArg₂ (· * ·) (congrArg _ (by idx2)) (congrArg _ (by idx2))

end Cert.RefValue

end
-- ==== Proof.lean ====
/-
  The certificate: the kernel program and its reference compute the same function over the extended reals.

  Both programs encode every row of two 8192 × 64 inputs by the same three-layer map (two rectified affine layers, an
  affine layer, then division by the row's length floored at a small constant) and return all pairwise inner products of
  the encoded rows (Spec.G). The kernel does it in three calls — two encoders over blocks of 512 rows and one blocked
  product over an 8 × 8 grid of 1024 × 1024 blocks, scaled by the float one; the reference in whole-array operations,
  dividing by the float one at the end. At the exact values a change of float format is the identity, a blocked matrix
  product is the same finite sum as a whole one, and multiplying or dividing by one changes nothing; no other law is used,
  so the finiteness of the inputs is never opened.

  The three frames: the two kernel programs' are their frame certificates; the reference's is its run with the result
  dropped. The idealization rewrote nothing, so the preservation claim is trivial.
-/
import proofs.«114452_j37538014167585_1_alg».proof.Defs
import proofs.«114452_j37538014167585_1_alg».proof.Proof.Gen.Kernel
import proofs.«114452_j37538014167585_1_alg».proof.Proof.Gen.Kernel.Skeleton
import proofs.«114452_j37538014167585_1_alg».proof.Proof.Gen.Kernel.Launch
import proofs.«114452_j37538014167585_1_alg».proof.Proof.Gen.Kernel.Points
import proofs.«114452_j37538014167585_1_alg».proof.Proof.Gen.Kernel.Frame
import proofs.«114452_j37538014167585_1_alg».proof.Proof.Gen.KernelIdeal
import proofs.«114452_j37538014167585_1_alg».proof.Proof.Gen.KernelIdeal.Skeleton
import proofs.«114452_j37538014167585_1_alg».proof.Proof.Gen.KernelIdeal.Launch
import proofs.«114452_j37538014167585_1_alg».proof.Proof.Gen.KernelIdeal.Points
import proofs.«114452_j37538014167585_1_alg».proof.Proof.Gen.KernelIdeal.Frame
import proofs.«114452_j37538014167585_1_alg».proof.Proof.Gen.ReferenceIdeal
import proofs.«114452_j37538014167585_1_alg».proof.Proof.Gen.ReferenceIdeal.Run
import proofs.«114452_j37538014167585_1_alg».proof.Proof.Gen.ReferenceIdeal.Read
import proofs.«114452_j37538014167585_1_alg».proof.Proof.Gen.Pre_finite_inputs
import proofs.«114452_j37538014167585_1_alg».proof.Proof.KernelValue
import proofs.«114452_j37538014167585_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference runs and keeps its arguments: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with the specification's function of those arguments
    in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
